-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x256 : Shape := ⟨2, ![1048576, 256]⟩
abbrev S1048576 : Shape := ⟨1, ![1048576]⟩
abbrev S_ : Shape := ⟨0, ![]⟩

class Facts : Prop where
  bcast_S_S1048576x256 : S_.BroadcastsInDim S1048576x256 (![] : Fin 0 → Fin S1048576x256.rank)
  reducesTo_S1048576x256_S_d0_1 : S1048576x256.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x256 .f32) (main_arg1 : IVec S1048576 32) : IVec S_ 1 :=
  let main_v0 : FVec F S1048576x256 .f32 := Host.absf main_arg0
  let main_cst : FVec F S_ .f32 := constant S_ .f32 0x7F800000#32
  let main_v1 : FVec F S1048576x256 .f32 := broadcastInDim S1048576x256 ![] bcast_S_S1048576x256 main_cst
  let main_v2 : IVec S1048576x256 1 := cmpf .olt main_v0 main_v1
  let main_c : IVec S_ 1 := constantI S_ 1 1#1
  let main_v3 : IVec S_ 1 := (fun x v => Host.reduce IntOp.andi x v reducesTo_S1048576x256_S_d0_1 h_S_) main_v2 main_c
  let main_c_0 : IVec S_ 32 := constantI S_ 32 0#32
  let main_v4 : IVec S1048576 32 := broadcastInDim S1048576 ![] bcast_S_S1048576 main_c_0
  let main_v5 : IVec S1048576 1 := cmpi .sge main_arg1 main_v4
  let main_c_1 : IVec S_ 32 := constantI S_ 32 256#32
  let main_v6 : IVec S1048576 32 := broadcastInDim S1048576 ![] bcast_S_S1048576 main_c_1
  let main_v7 : IVec S1048576 1 := cmpi .slt main_arg1 main_v6
  let main_v8 : IVec S1048576 1 := andi main_v5 main_v7
  let main_c_2 : IVec S_ 1 := constantI S_ 1 1#1
  let main_v9 : IVec S_ 1 := (fun x v => Host.reduce IntOp.andi x v reducesTo_S1048576_S_d0 h_S_) main_v8 main_c_2
  let main_v10 : IVec S_ 1 := andi main_v3 main_v9
  main_v10
-- ==== Kernel.lean ====
abbrev S1048576x256 : Shape := ⟨2, ![1048576, 256]⟩
abbrev S1048576 : Shape := ⟨1, ![1048576]⟩
abbrev S_ : Shape := ⟨0, ![]⟩
abbrev S2x8x128 : Shape := ⟨3, ![2, 8, 128]⟩
abbrev S8192x256 : Shape := ⟨2, ![8192, 256]⟩
abbrev S8192 : Shape := ⟨1, ![8192]⟩
abbrev S1x8x128 : Shape := ⟨3, ![1, 8, 128]⟩
abbrev S1x1 : Shape := ⟨2, ![1, 1]⟩
abbrev S2048x256 : Shape := ⟨2, ![2048, 256]⟩
abbrev S2048 : Shape := ⟨1, ![2048]⟩
abbrev S2048x1 : Shape := ⟨2, ![2048, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 18
  | .vmem => 6
  | .smem => 0
  | _ => 0

abbrev bufTy : (tb : Table) → Fin (tcTables nBuf tb) → BufTy
  | .hbm, ⟨0, _⟩ => ⟨S1048576x256, .f32⟩
  | .hbm, ⟨1, _⟩ => ⟨S1048576, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S1048576, .i32⟩
  | .hbm, ⟨6, _⟩ => ⟨S1048576, .i32⟩
  | .hbm, ⟨7, _⟩ => ⟨S_, .i32⟩
  | .hbm, ⟨8, _⟩ => ⟨S1048576, .i32⟩
  | .hbm, ⟨9, _⟩ => ⟨S1048576, .i32⟩
  | .hbm, ⟨10, _⟩ => ⟨S2x8x128, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S8192, .i32⟩
  | .local _ .vmem, ⟨3, _⟩ => ⟨S8192, .i32⟩
  | .local _ .vmem, ⟨4, _⟩ => ⟨S1x8x128, .f32⟩
  | .local _ .vmem, ⟨5, _⟩ => ⟨S1x8x128, .f32⟩
  | _, _ => ⟨S1048576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c2048_i32 : BitVec 32 := 2048#32
  let v12 : BitVec 32 := Scalar.muli arg5 c2048_i32
  v12
def k0_off1 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c2048_i32 : BitVec 32 := 2048#32
  let v12 : BitVec 32 := Scalar.muli arg5 c2048_i32
  let v13 : BitVec 32 := v12
  let v14 : Index := Scalar.indexCast v13
  let c0_8 : Index := 0#32
  ![v14.toNat, 0]
def k0_off2 (k0_t1 : Fin k0_t1_loop.trips) : Fin 1 → Nat :=
  let c0_i32_1 : BitVec 32 := 0#32
  let c1_i32 : BitVec 32 := 1#32
  let arg5 : BitVec 32 := Scf.iv c0_i32_1 c1_i32 k0_t1
  let c2048_i32 : BitVec 32 := 2048#32
  let v12 : BitVec 32 := Scalar.muli arg5 c2048_i32
  let v13 : BitVec 32 := v12
  let v16 : Index := Scalar.indexCast v13
  ![v16.toNat]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S1048576 : S_.BroadcastsInDim S1048576 (![] : Fin 0 → Fin S1048576.rank)
  inb_S1x8x128_S1x8x128_0_0_0 : ∀ a, (![0, 0, 0] : Fin 3 → Nat) a + S1x8x128.size a ≤ S1x8x128.size a
  h_S1x8x128 : 0 < S1x8x128.numel
  h_S2048x256 : 0 < S2048x256.numel
  h_S2048 : 0 < S2048.numel
  shapeCasts_S2048_S2048 : S2048.ShapeCasts S2048
  iota_S2048x256_d1_w32 : S2048x256.Iotas .tc 32 [1]
  shapeCasts_S2048_S2048x1 : S2048.ShapeCasts S2048x1
  broadcasts_S2048x1_S2048x256 : S2048x1.Broadcasts S2048x256
  natLt_1_32 : 1 < 32
  reduces_S2048x256_S2048 : S2048x256.Reduces [1] S2048
  reduces_S2048x1_S1 : S2048x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x256.size a ≤ S8192x256.size a
  k0_off2_inb : ∀ k0_t1 : Fin k0_t1_loop.trips, ∀ a, (k0_off2 k0_t1) a + S2048.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S1048576x256.size a
  hwx0_0 : ∀ i : grid0.Coords, EltTy.bits .f32 = 32 ∨ (Rect.block (s := S1048576x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1048576.size a
  hwx0_1 : ∀ i : grid0.Coords, EltTy.bits .i32 = 32 ∨ (Rect.block (s := S1048576) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x256 : Shape := ⟨2, ![1048576, 256]⟩
abbrev S1048576 : Shape := ⟨1, ![1048576]⟩
abbrev S1048576x1 : Shape := ⟨2, ![1048576, 1]⟩
abbrev S_ : Shape := ⟨0, ![]⟩
abbrev S1048576x1x1 : Shape := ⟨3, ![1048576, 1, 1]⟩
abbrev S1 : Shape := ⟨1, ![1]⟩
abbrev S1x1x1 : Shape := ⟨3, ![1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S1048576x256, .f32⟩
  | .hbm, ⟨1, _⟩ => ⟨S1048576, .i32⟩
  | .hbm, ⟨2, _⟩ => ⟨S1048576x1, .i32⟩
  | .hbm, ⟨3, _⟩ => ⟨S_, .i32⟩
  | .hbm, ⟨4, _⟩ => ⟨S1048576x1, .i32⟩
  | .hbm, ⟨5, _⟩ => ⟨S1048576x1, .i1⟩
  | .hbm, ⟨6, _⟩ => ⟨S_, .i32⟩
  | .hbm, ⟨7, _⟩ => ⟨S1048576x1, .i32⟩
  | .hbm, ⟨8, _⟩ => ⟨S1048576x1, .i32⟩
  | .hbm, ⟨9, _⟩ => ⟨S1048576x1, .i32⟩
  | .hbm, ⟨10, _⟩ => ⟨S1048576x1x1, .i32⟩
  | .hbm, ⟨11, _⟩ => ⟨S1, .i32⟩
  | .hbm, ⟨12, _⟩ => ⟨S_, .i32⟩
  | .hbm, ⟨13, _⟩ => ⟨S1048576x1x1, .i32⟩
  | .hbm, ⟨14, _⟩ => ⟨S1048576x1x1, .i1⟩
  | .hbm, ⟨15, _⟩ => ⟨S1x1x1, .i32⟩
  | .hbm, ⟨16, _⟩ => ⟨S1048576x1x1, .i32⟩
  | .hbm, ⟨17, _⟩ => ⟨S1048576x1x1, .i1⟩
  | .hbm, ⟨18, _⟩ => ⟨S1048576x1x1, .i1⟩
  | .hbm, ⟨19, _⟩ => ⟨S_, .i1⟩
  | .hbm, ⟨20, _⟩ => ⟨S1048576x1, .i1⟩
  | .hbm, ⟨21, _⟩ => ⟨S1048576x1, .f32⟩
  | .hbm, ⟨22, _⟩ => ⟨S_, .f32⟩
  | .hbm, ⟨23, _⟩ => ⟨S1048576x1, .f32⟩
  | .hbm, ⟨24, _⟩ => ⟨S1048576x1, .f32⟩
  | .hbm, ⟨25, _⟩ => ⟨S1048576, .f32⟩
  | .hbm, ⟨26, _⟩ => ⟨S1048576, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S1048576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  h_S_ : 0 < S_.numel
  shapeCasts_S1048576x1_S1048576 : S1048576x1.ShapeCasts S1048576
  reducesTo_S1048576_S_d0 : S1048576.ReducesTo [0] S_
  gather_S1048576x256_S1048576x1x1_S1048576x1_n_1_0_0_1_2_11_wf : GatherDims.WF S1048576x256 S1048576x1x1 S1048576x1 [] [1] [0] [1] [0] 2 ![1, 1]

variable [Facts₀]

def gather_S1048576x256_S1048576x1x1_S1048576x1_n_1_0_0_1_2_11 : GatherDims S1048576x256 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x256_S1048576x1x1_S1048576x1_n_1_0_0_1_2_11_wf

class Facts : Prop extends Facts₀ where

variable [Facts]
-- ==== Proof.Spec.lean ====
/-
  The loss both programs compute, as one function of the two argument arrays.

  For a table of probabilities P : [1048576, 256] and a vector of class labels L : [1048576], every label a class
  index (below 256), row r contributes log P[r, L[r]]; the loss is minus the sum of the 1048576 contributions, over
  2^20. The contributions are extended reals (log 0 = -inf, and a sum may hold both infinities), so nothing here
  assumes a probability positive or finite: extended-real addition is commutative and associative as it stands,
  which is all a regrouping of the sum needs.

  The rows are summed over the naturals below 1048576 (a contribution past the last row is 0), so that a sum over a
  stretch of rows is a sum over a range and consecutive stretches join by `Finset.sum_range_add`.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- The probabilities' shape, the labels' shape, and the scalar shape. -/
abbrev SPred : Shape := ⟨2, ![1048576, 256]⟩
abbrev SLab : Shape := ⟨1, ![1048576]⟩
abbrev S0 : Shape := ⟨0, ![]⟩

/-- Every label word is a class index: below 256 read unsigned (hence also non-negative read signed). -/
def InRange (L : SLab.Idx → BitVec 32) : Prop := ∀ r : Fin 1048576, (L (ix1 r)).toNat < 256

/-- The column a label word names (the word itself when it is a class index). -/
def col (w : BitVec 32) : Fin 256 := ⟨w.toNat % 256, Nat.mod_lt _ (by decide)⟩

theorem col_val_of_lt {w : BitVec 32} (h : w.toNat < 256) : (col w).val = w.toNat := Nat.mod_eq_of_lt h

/-- Row `r`'s contribution: the log of the probability its label picks; 0 past the last row. -/
def term (P : SPred.Idx → EReal) (L : SLab.Idx → BitVec 32) (r : ℕ) : EReal :=
  if h : r < 1048576 then Ideal.log (P (ix2 ⟨r, h⟩ (col (L (ix1 ⟨r, h⟩))))) else 0

theorem term_of_lt (P : SPred.Idx → EReal) (L : SLab.Idx → BitVec 32) (r : Fin 1048576) :
    term P L r.val = Ideal.log (P (ix2 r (col (L (ix1 r))))) := by
  unfold term; rw [dif_pos r.isLt]

/-- The sum of all contributions. -/
def total (P : SPred.Idx → EReal) (L : SLab.Idx → BitVec 32) : EReal := ∑ r ∈ Finset.range 1048576, term P L r

/-- The divisor both programs spell, 2^20 as an f32 word. -/
abbrev D : EReal := Ideal.ofBits .f32 0x49800000#32

/-- That word denotes the real 1048576. -/
theorem D_eq : D = ((1048576 : ℝ) : EReal) := by
  simp [D, Ideal.ofBits, Ideal.ieee, -EReal.coe_mul]; norm_num

theorem D_ne_zero : D ≠ 0 := by rw [D_eq]; exact_mod_cast (by norm_num : (1048576 : ℝ) ≠ 0)

/-- Dividing by it commutes with negation: off zero the quotient is a product with the inverse. -/
theorem div_D_neg (x : EReal) : Ideal.div (-x) D = -(Ideal.div x D) := by
  unfold Ideal.div; rw [if_neg D_ne_zero, if_neg D_ne_zero, EReal.neg_mul]

/-- THE LOSS: minus the total, over 2^20 (negated first, then divided; `div_D_neg` gives the other order). -/
def loss (P : SPred.Idx → EReal) (L : SLab.Idx → BitVec 32) : S0.Idx → EReal := fun _ => Ideal.div (-(total P L)) D

end Cert.Loss

end
-- ==== Proof.RefValue.lean ====
/-
  The reference's result is the loss. With every label a class index: the wrap of negative labels does not fire, the
  in-bounds test holds, the gather (clamping its start index to [0, 255]) reads the probability at the label's column,
  and the NaN fill is never selected; so row r contributes log P[r, L[r]], the host's sum is 0 plus the sum over the
  rows, and dividing by 2^20 then negating is negating then dividing (off zero the quotient is a product).
-/
import proofs.«407000_j55989193670919_3_alg».proof.Proof.Spec
import proofs.«407000_j55989193670919_3_alg».proof.Proof.RefRead
import Idealize.ShloMosaic.Lib.ReduceAll
import Idealize.ShloMosaic.Lib.StableHlo.Predicate

noncomputable section

namespace Cert.Loss.RefValue

open Idealize.ShloMosaic Idealize.ShloMosaic.ValueIdx Cert.ReferenceIdeal Cert.ReferenceIdeal.Gen Cert.ReferenceIdeal.ReadP Cert.Loss

/-! ## Words: a class index compared, signed, against 0, 255 and 256 -/

section Words
open Idealize.ShloMosaic.StableHlo.Predicate

/-- A class index is not negative read signed: the wrap's test fails. -/
theorem slt_zero_of_lt {w : BitVec 32} (h : w.toNat < 256) : IntOp.cmpi .slt w 0#32 = 0#1 := by
  refine eq_zero_of_ne_one fun e => ?_
  have h0 := (slt_iff_toNat (a := w) (b := 0#32) (by omega) (by decide)).1 e
  exact Nat.not_lt_zero _ h0

/-- A class index is at least 0 read signed. -/
theorem sge_zero_of_lt {w : BitVec 32} (h : w.toNat < 256) : IntOp.cmpi .sge w 0#32 = 1#1 :=
  (sge_iff_toNat (a := w) (b := 0#32) (by omega) (by decide)).2 (Nat.zero_le _)

/-- A class index is at most 255 read signed. -/
theorem sle_255_of_lt {w : BitVec 32} (h : w.toNat < 256) : IntOp.cmpi .sle w 255#32 = 1#1 :=
  (sle_iff_toNat (a := w) (b := 255#32) (by omega) (by decide)).2 (by show w.toNat ≤ 255; omega)

/-- A class index read signed and clamped into [0, 255] is the column it names. -/
theorem clamp_eq_col {w : BitVec 32} (h : w.toNat < 256) : min w.toInt.toNat 255 = (col w).val := by
  rw [toInt_eq_toNat_of_lt (by omega), Int.toNat_natCast, col_val_of_lt h]; omega

end Words

/-! ## A reduce by `and` of bits that are all 1 -/

/-- A left fold by `and` from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduce by `and` from the bit 1 of an array whose every bit is 1 is 1 everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ fun n _ => hx n

/-! ## The gather, read at a row

Operand `[1048576, 256]`, start indices `[1048576, 1, 1]`, result `[1048576, 1]`. Axis 0 of the operand is the batching
axis: its start is 0, its batch coordinate the result's row, its offset 0. Axis 1 is the collapsed, indexed axis: its start
is the row's start index read signed and clamped into [0, 255], its batch coordinate and offset 0. -/

section Gather

/-- The operand's row is the result's row. -/
theorem gather_axis0 (idx : IVec S1048576x1x1 32) (r : Fin 1048576) :
    (gather_S1048576x256_S1048576x1x1_S1048576x1_n_1_0_0_1_2_11.operandIdx (ix2 r (0 : Fin 1)) idx 0).val = r.val := by
  show gather_S1048576x256_S1048576x1x1_S1048576x1_n_1_0_0_1_2_11.start (ix2 r (0 : Fin 1)) idx 0
    + gather_S1048576x256_S1048576x1x1_S1048576x1_n_1_0_0_1_2_11.batchCoord (ix2 r (0 : Fin 1)) 0
    + gather_S1048576x256_S1048576x1x1_S1048576x1_n_1_0_0_1_2_11.offCoord (ix2 r (0 : Fin 1)) 0 = r.val
  have hb : (0 : Fin S1048576x256.rank) ∈ gather_S1048576x256_S1048576x1x1_S1048576x1_n_1_0_0_1_2_11.operandBatchingDims :=
    List.mem_singleton.mpr rfl
  rw [GatherDims.start_batching _ _ _ _ hb,
    GatherDims.offCoord_eq_zero _ _ _ (fun h => ((GatherDims.mem_sKept _ _).mp h).2 hb), Nat.zero_add, Nat.add_zero]
  unfold GatherDims.batchCoord
  rw [dif_pos hb]
  rfl

/-- The operand's column is the row's start index, read signed and clamped into [0, 255]. -/
theorem gather_axis1 (idx : IVec S1048576x1x1 32) (r : Fin 1048576) :
    (gather_S1048576x256_S1048576x1x1_S1048576x1_n_1_0_0_1_2_11.operandIdx (ix2 r (0 : Fin 1)) idx 1).val
      = min (idx (ix3 r (0 : Fin 1) (0 : Fin 1))).toInt.toNat 255 := by
  show gather_S1048576x256_S1048576x1x1_S1048576x1_n_1_0_0_1_2_11.start (ix2 r (0 : Fin 1)) idx 1
    + gather_S1048576x256_S1048576x1x1_S1048576x1_n_1_0_0_1_2_11.batchCoord (ix2 r (0 : Fin 1)) 1
    + gather_S1048576x256_S1048576x1x1_S1048576x1_n_1_0_0_1_2_11.offCoord (ix2 r (0 : Fin 1)) 1 = _
  have hc : (1 : Fin S1048576x256.rank) ∈ gather_S1048576x256_S1048576x1x1_S1048576x1_n_1_0_0_1_2_11.collapsedSliceDims :=
    List.mem_singleton.mpr rfl
  have hnb : (1 : Fin S1048576x256.rank) ∉ gather_S1048576x256_S1048576x1x1_S1048576x1_n_1_0_0_1_2_11.operandBatchingDims := by
    decide
  have hm : (1 : Fin S1048576x256.rank) ∈ gather_S1048576x256_S1048576x1x1_S1048576x1_n_1_0_0_1_2_11.startIndexMap :=
    List.mem_singleton.mpr rfl
  rw [GatherDims.batchCoord_eq_zero _ _ _ hnb,
    GatherDims.offCoord_eq_zero _ _ _ (fun h => ((GatherDims.mem_sKept _ _).mp h).1 hc), Nat.add_zero]
  unfold GatherDims.start
  rw [dif_pos hm]
  have hsi : gather_S1048576x256_S1048576x1x1_S1048576x1_n_1_0_0_1_2_11.siIdx (ix2 r (0 : Fin 1))
      ⟨List.idxOf (1 : Fin S1048576x256.rank) gather_S1048576x256_S1048576x1x1_S1048576x1_n_1_0_0_1_2_11.startIndexMap,
        List.idxOf_lt_length_iff.2 hm⟩ = ix3 r (0 : Fin 1) (0 : Fin 1) := by
    funext b; refine Fin.ext ?_
    match b with
    | ⟨0, _⟩ => rfl
    | ⟨1, _⟩ => rfl
    | ⟨2, _⟩ => rfl
  rw [hsi]
  rfl

/-- THE GATHER READ AT ROW `r`: the operand at row `r` and the column the row's start index names, read signed and
    clamped into [0, 255]. -/
theorem gather_row {α : Type} (x : S1048576x256.Idx → α) (idx : IVec S1048576x1x1 32) (r : Fin 1048576) :
    Host.gather gather_S1048576x256_S1048576x1x1_S1048576x1_n_1_0_0_1_2_11 x idx (ix2 r (0 : Fin 1))
      = x (ix2 r (⟨min (idx (ix3 r (0 : Fin 1) (0 : Fin 1))).toInt.toNat 255, by omega⟩ : Fin 256)) := by
  unfold Host.gather
  congr 1
  funext a
  refine Fin.ext ?_
  match a with
  | ⟨0, _⟩ => exact gather_axis0 idx r
  | ⟨1, _⟩ => exact gather_axis1 idx r

end Gather

/-! ## The stages at an index, for labels that are class indices -/

section Stages

variable (P : (⟨S1048576x256, .f32⟩ : BufTy).Contents (Elt Ideal)) (L : (⟨S1048576, .i32⟩ : BufTy).Contents (Elt Ideal))

/-- Every label word, at whatever index of the labels' shape, is a class index. -/
theorem lt_of_inRange (hL : InRange L) (q : S1048576.Idx) : (L q).toNat < 256 := by
  rw [eq_ix1 q]; exact hL _

/-- The wrap of negative labels does not fire: the wrapped label is the label. -/
theorem v4_eq (hL : InRange L) (k : S1048576x1.Idx) : val_main_call0_v4 (F := Ideal) L k = L (idx_main_v0 k) := by
  rw [val_main_call0_v4_apply, val_main_call0_v1_apply, val_main_v0_apply, val_main_call0_v0_apply,
    val_main_call0_c_apply, slt_zero_of_lt (lt_of_inRange L hL _), select_zero]

/-- The start indices are the labels. -/
theorem v5_eq (hL : InRange L) (i : S1048576x1x1.Idx) :
    val_main_call0_v5 (F := Ideal) L i = L (idx_main_v0 (idx_main_call0_v5 i)) := by
  rw [val_main_call0_v5_apply, v4_eq L hL]

/-- Every in-bounds bit is 1. -/
theorem v11_one (hL : InRange L) (i : S1048576x1x1.Idx) : val_main_call0_v11 (F := Ideal) L i = 1#1 := by
  rw [val_main_call0_v11_apply, val_main_call0_v7_apply, val_main_call0_v10_apply, v5_eq L hL, val_main_call0_v6_apply,
    val_main_call0_c_2_apply, val_main_call0_v9_apply, val_main_call0_v8_apply, val_main_call0_c_1_apply,
    sge_zero_of_lt (lt_of_inRange L hL _), sle_255_of_lt (lt_of_inRange L hL _)]
  decide

/-- So the in-bounds test holds at every row. -/
theorem v12_one (hL : InRange L) (k : S1048576x1.Idx) : val_main_call0_v12 (F := Ideal) L k = 1#1 := by
  unfold val_main_call0_v12
  exact reduce_andi_of_all _ _ _ _ rfl (v11_one L hL) k

/-- The start index of row `r` is row `r`'s label. -/
theorem v5_row (hL : InRange L) (r : Fin 1048576) :
    val_main_call0_v5 (F := Ideal) L (ix3 r (0 : Fin 1) (0 : Fin 1)) = L (ix1 r) := by
  rw [v5_eq L hL]
  congr 1
  funext a
  match a with
  | ⟨0, _⟩ => exact Fin.ext (by show ((r.val * 1 + 0) * 1 + 0) / 1 = r.val; omega)

/-- The gather reads, at row `r`, the probability at the label's column. -/
theorem v13_row (hL : InRange L) (r : Fin 1048576) :
    val_main_call0_v13 (F := Ideal) P L (ix2 r (0 : Fin 1)) = P (ix2 r (col (L (ix1 r)))) := by
  unfold val_main_call0_v13
  rw [gather_row]
  refine congrArg P (congrArg (ix2 r) (Fin.ext ?_))
  show min (val_main_call0_v5 (F := Ideal) L (ix3 r (0 : Fin 1) (0 : Fin 1))).toInt.toNat 255 = (col (L (ix1 r))).val
  rw [v5_row L hL]
  exact clamp_eq_col (hL r)

/-- The flattened column's index at `r` is row `r` of the column. -/
theorem idx_v2_row (r : Fin 1048576) : idx_main_v2 (ix1 r) = ix2 r (0 : Fin 1) := by
  funext a
  match a with
  | ⟨0, _⟩ => exact Fin.ext (Nat.div_one _)
  | ⟨1, _⟩ => rfl

/-- Row `r` contributes the log of the probability its label picks. -/
theorem v3_row (hL : InRange L) (r : Fin 1048576) : val_main_v3 (F := Ideal) P L (ix1 r) = term P L r.val := by
  rw [val_main_v3_apply, val_main_v2_apply, idx_v2_row, val_main_v1_apply, v12_one L hL, select_one, v13_row P L hL,
    Ideal.hostUnary_log_def, term_of_lt]

end Stages

/-! ## The sum over the rows -/

/-- The rows, as indices of the labels' shape. -/
def rowEquiv : Fin 1048576 ≃ S1048576.Idx where
  toFun := ix1
  invFun j := j 0
  left_inv _ := rfl
  right_inv j := (eq_ix1 j).symm

/-- A sum over the indices of the rows' shape is the sum over the rows. -/
theorem sum_rows (f : S1048576.Idx → EReal) : ∑ j : S1048576.Idx, f j = ∑ r : Fin 1048576, f (ix1 r) :=
  (Fintype.sum_equiv rowEquiv (fun r => f (ix1 r)) f (fun _ => rfl)).symm

/-- THE REFERENCE'S VALUE: its last stage, of probabilities P and in-range labels L, is the loss. -/
theorem ref_value (P : (⟨S1048576x256, .f32⟩ : BufTy).Contents (Elt Ideal)) (L : (⟨S1048576, .i32⟩ : BufTy).Contents (Elt Ideal))
    (hL : InRange L) : val_main_v6 (F := Ideal) P L = loss P L := by
  funext i
  rw [val_main_v6_apply, val_main_v5_apply, val_main_v4_apply, val_main_cst_apply, val_main_cst_0_apply,
    Ideal.ofBits_def, Ideal.ofBits_def, Ideal.ofBits_zero_f32, zero_add, sum_rows, Ideal.hostNegf_def, Ideal.negf_def, Ideal.hostDivf_def]
  show -(Ideal.div (∑ r : Fin 1048576, val_main_v3 (F := Ideal) P L (ix1 r)) D) = Ideal.div (-(total P L)) D
  rw [div_D_neg, total, ← Fin.sum_univ_eq_sum_range]
  exact congrArg (fun s => -(Ideal.div s D)) (Finset.sum_congr rfl fun r _ => v3_row P L hL r)

end Cert.Loss.RefValue

end
-- ==== Proof.PreRange.lean ====
/-
  The label range out of the printed precondition. The precondition is the conjunction of "every probability is finite"
  and "every label word is at least 0 and below 256, compared signed"; its second conjunct, read at one row, says the
  row's label word is a class index: a 32-bit word that is non-negative and below 256 as a signed integer is below 256
  as a natural number.
-/
import proofs.«407000_j55989193670919_3_alg».proof.Proof.Spec
import proofs.«407000_j55989193670919_3_alg».proof.Pre_finite_inputs
import Idealize.ShloMosaic.Lib.ReduceAll
import Idealize.ShloMosaic.Lib.StableHlo.Predicate

noncomputable section

namespace Cert.Loss.PreRange

open Idealize.ShloMosaic Idealize.ShloMosaic.ValueIdx Cert.Loss

/-- A 32-bit word that is at least 0 and below 256, both compared signed, is below 256 as a natural number: read signed
    it is its natural value when the top bit is clear and that value minus 2^32, a negative number, otherwise. -/
theorem toNat_lt_of_signed (w : BitVec 32) (h0 : IntOp.cmpi .sge w 0#32 = 1#1) (h1 : IntOp.cmpi .slt w 256#32 = 1#1) :
    w.toNat < 256 := by
  rw [IntOp.cmpi_sge, show (0#32 : BitVec 32).toInt = 0 from by decide] at h0
  rw [IntOp.cmpi_slt, show (256#32 : BitVec 32).toInt = 256 from by decide] at h1
  have hw := BitVec.toInt_eq_toNat_cond w
  split at hw <;> omega

/-- Where the printed precondition holds (its one result bit is 1), every label is a class index. -/
theorem inRange_of_fn [Cert.Pre_finite_inputs.Facts] (P : FVec Ideal Cert.Pre_finite_inputs.S1048576x256 .f32)
    (L : IVec Cert.Pre_finite_inputs.S1048576 32)
    (h : Cert.Pre_finite_inputs.fn (F := Ideal) P L = fun _ => 1#1) : InRange L := by
  intro r
  -- the result bit is the conjunction of the two reductions' bits; the second reduction is the labels'
  have h0 := congrFun h ix0
  dsimp only [Cert.Pre_finite_inputs.fn] at h0
  obtain ⟨-, h9⟩ := IntOp.andi_eq_one.1 h0
  -- the scalar shape has one index, so the reduction is over every axis
  haveI : Subsingleton Cert.Pre_finite_inputs.S_.Idx := ⟨fun _ _ => funext fun d => d.elim0⟩
  -- a reduction by `and` over every axis that came out 1 met a 1 at every row, row r among them
  have h8 := Host.reduce_andi_all _ _ _ _ _ h9 (ix1 r)
  -- at row r that bit is the conjunction of the two signed comparisons of the label word with the constants 0 and 256
  obtain ⟨h5, h7⟩ := IntOp.andi_eq_one.1 h8
  exact toNat_lt_of_signed (L (ix1 r)) h5 h7

end Cert.Loss.PreRange

end
-- ==== Proof.KernelPieces.lean ====
/-
  What one run of the kernel body leaves in its output block, as a pure term of the blocks it was given.

  The body zeroes the output block when it is at the first step of its core's row range, runs four trips of a loop
  that carries a [1,1] value from zero, each trip adding one chunk's result, and stores the block read back plus the
  carried value broadcast over it. So at a first step it leaves (the zero block) + carried, elsewhere (what the block
  held) + carried; and the carried value after a trip is the chunk payload of the carried value before it and of the
  trip's 2048 rows of the two input blocks.
-/
import proofs.«407000_j55989193670919_3_alg».proof.Proof.Gen.KernelIdeal.Frame
import Idealize.ShloMosaic.Lib.Pipeline.Value
import Idealize.ShloMosaic.Lib.Tactic

noncomputable section

namespace Cert.Loss.Kernel

open Idealize.ShloMosaic Idealize.ShloMosaic.TcCoe Idealize.SL.Sem Cert.KernelIdeal Cert.KernelIdeal.Gen

variable {F : FTy → Type} [FloatOps F]

theorem hz3 : (![0, 0, 0] : Fin 3 → Nat) = fun _ => 0 := funext fun a => by fin_cases a <;> rfl

/-- The rows of the probabilities block that trip `k` loads, and the labels it loads. -/
abbrev rowsAt (x0 : Vec F S8192x256 .f32) (k : Fin k0_t1_loop.trips) : Vec F S2048x256 .f32 :=
  View.ld x0 (Rect.unit (s := S8192x256) (k0_off1 k) S2048x256.size (k0_off1_inb k))
abbrev labelsAt (x1 : Vec F S8192 .i32) (k : Fin k0_t1_loop.trips) : Vec F S2048 .i32 :=
  View.ld x1 (Rect.unit (s := S8192) (k0_off2 k) S2048.size (k0_off2_inb k))

/-- ONE TRIP: the carried value after trip `k` is the chunk payload of the carried value before it and of the trip's
    rows and labels, read off the two input blocks. -/
theorem trip_val (𝒱 : Variants) (c : Dev nD) (bd : Option 𝒱.V) (i : grid0.Coords) (a2 : Memref sig .tc .vmem S8192x256 .f32) (h2 : a2.IsWhole)
    (a3 : Memref sig .tc .vmem S8192 .i32) (h3 : a3.IsWhole) (a4 : Memref sig .tc .vmem S1x8x128 .f32) (h4 : a4.IsWhole)
    (x0 : Vec F S8192x256 .f32) (x1 : Vec F S8192 .i32) (k : Fin k0_t1_loop.trips) (acc : FVec F S1x1 .f32) :
    tripR_k0_t1 (F := F) 𝒱 c bd i a2 h2 a3 h3 a4 h4 (h2.unread x0) (h3.unread x1) k acc
      = k0_pay3 acc (rowsAt x0 k) (labelsAt x1 k) := by
  unfold tripR_k0_t1 trip_k0_t1
  dsimp only
  simp only [View.readAt_eq_ld, h2.read_unread, h3.read_unread]

/-- The carried value when the loop ends. -/
abbrev carried (c : Dev nD) (i : grid0.Coords) (a2 : Memref sig .tc .vmem S8192x256 .f32) (h2 : a2.IsWhole)
    (a3 : Memref sig .tc .vmem S8192 .i32) (h3 : a3.IsWhole) (a4 : Memref sig .tc .vmem S1x8x128 .f32) (h4 : a4.IsWhole)
    (x0 : Vec F S8192x256 .f32) (x1 : Vec F S8192 .i32) : FVec F S1x1 .f32 :=
  st_k0_t1 (F := F) Variants.none c none i a2 h2 a3 h3 a4 h4 (h2.unread x0) (h3.unread x1) k0_pay2
    (Scf.trips (0#32) (Scalar.addi 0#32 4#32) 1#32)

/-- AWAY FROM A FIRST STEP the body leaves, in the output block holding `xo`, `xo` plus the carried value. -/
theorem out_B (c : Dev nD) (i : grid0.Coords) (a2 : Memref sig .tc .vmem S8192x256 .f32) (h2 : a2.IsWhole)
    (a3 : Memref sig .tc .vmem S8192 .i32) (h3 : a3.IsWhole) (a4 : Memref sig .tc .vmem S1x8x128 .f32) (h4 : a4.IsWhole)
    (hc : ¬cond0_0 i) (x0 : Vec F S8192x256 .f32) (x1 : Vec F S8192 .i32) (xo : Vec F S1x8x128 .f32) :
    out0_B_2 c i a2 h2 a3 h3 a4 h4 hc x0 x1 xo = k0_pay4 (carried c i a2 h2 a3 h3 a4 h4 x0 x1) xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h4.read_unread, View.ld_unit_zero (S := S1x8x128) hz3]

/-- AT A FIRST STEP it stores the zero block, reads it back, and leaves the zero block plus the carried value. -/
theorem out_A (c : Dev nD) (i : grid0.Coords) (a2 : Memref sig .tc .vmem S8192x256 .f32) (h2 : a2.IsWhole)
    (a3 : Memref sig .tc .vmem S8192 .i32) (h3 : a3.IsWhole) (a4 : Memref sig .tc .vmem S1x8x128 .f32) (h4 : a4.IsWhole)
    (hc : cond0_0 i) (x0 : Vec F S8192x256 .f32) (x1 : Vec F S8192 .i32) :
    out0_A_2 c i a2 h2 a3 h3 a4 h4 hc x0 x1 = k0_pay4 (carried c i a2 h2 a3 h3 a4 h4 x0 x1) (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3, View.readCov_unit_zero (S := S1x8x128) _ hz3]

end Cert.Loss.Kernel

end
-- ==== Proof.LibKeepdims.lean ====
/-
  Column layouts read at an index: a vector [a] viewed as a column [a, 1], a column [a, 1] viewed as a
  vector [a], and a column [a, 1] broadcast along rows to [a, b] (what a reduction with kept dimensions
  produces and consumes). Each reads the operand at the row coordinate, the unit coordinate being 0.
-/
import Idealize.ShloMosaic.Lib.ValueIdx
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.ChunkPayload.lean ====
/-
  One chunk of the kernel's body. From a block of 2048 rows of probabilities and their 2048 labels, every label a
  class index, the chunk's arithmetic (a one-hot mask by comparing a lane iota with the row's label, the product with
  the mask, a lane sum, log, a sum down the rows, added to the carried value) adds to the carried [1,1] value the sum
  over the rows of log of the probability the row's label picks: in row q only lane (label q) survives the mask, a
  product with 0 is 0 and with 1 is the factor itself on every extended real.
-/
import proofs.«407000_j55989193670919_3_alg».proof.Proof.Spec
import proofs.«407000_j55989193670919_3_alg».proof.Proof.LibKeepdims
import proofs.«407000_j55989193670919_3_alg».proof.Proof.Gen.KernelIdeal.Skeleton
import Idealize.ShloMosaic.PureOps.Ideal.Laws
import Idealize.ShloMosaic.Lib.Pipeline.Value
import Idealize.ShloMosaic.Lib.ValueLayout

noncomputable section

namespace Cert.Loss.Chunk

open Idealize.ShloMosaic Idealize.ShloMosaic.ValueIdx Cert.KernelIdeal Cert.KernelIdeal.Gen Cert.Loss

/-! ## The two reductions' inserted indices, by coordinates -/

/-- Over row `q`, the lane reduction's source index with lane `k` inserted is `(q, k)`. -/
theorem lift_lane (h : S2048x256.Reduces [1] S2048) (q : Fin 2048) (k : Fin 256) :
    h.lift (ix1 q) k = ix2 q k := by
  funext c
  match c with
  | ⟨0, _⟩ => exact Fin.ext rfl
  | ⟨1, _⟩ => exact Fin.ext rfl

/-- Over the unit index `u`, the row reduction's source index with row `q` inserted is `(q, u)`. -/
theorem lift_row (h : S2048x1.Reduces [0] S1) (u : Fin 1) (q : Fin 2048) :
    h.lift (ix1 u) q = ix2 q u := by
  funext c
  match c with
  | ⟨0, _⟩ => exact Fin.ext rfl
  | ⟨1, _⟩ => exact Fin.ext rfl

/-- The sum along the lanes, read at row `q`: the sum over the 256 lanes of the row's entries. -/
theorem lane_sum (y : FVec Ideal S2048x256 .f32) (h : S2048x256.Reduces [1] S2048) (hφ : FKind.Formats .f32)
    (hacc : (0x00000000#32 : BitVec 32) = FKind.add.neutral .f32 hφ) (q : Fin 2048) :
    multiReduction (F := Ideal) .add [1] S2048 y 0x00000000#32 h hφ hacc (ix1 q) = ∑ k : Fin 256, y (ix2 q k) := by
  refine (Ideal.multiReduction_add_single y _ h hφ hacc (ix1 q)).trans ?_
  exact Finset.sum_congr rfl fun k _ => congrArg y (lift_lane h q k)

/-- The sum down the rows of a column, read at its one index: the sum over the 2048 rows of the column's entries. -/
theorem row_sum (z : FVec Ideal S2048x1 .f32) (h : S2048x1.Reduces [0] S1) (hφ : FKind.Formats .f32)
    (hacc : (0x00000000#32 : BitVec 32) = FKind.add.neutral .f32 hφ) (u : Fin 1) :
    multiReduction (F := Ideal) .add [0] S1 z 0x00000000#32 h hφ hacc (ix1 u) = ∑ q : Fin 2048, z (ix2 q u) := by
  refine (Ideal.multiReduction_add_single z _ h hφ hacc (ix1 u)).trans ?_
  exact Finset.sum_congr rfl fun q _ => congrArg z (lift_row h u q)

/-! ## The one-hot factor -/

/-- A word below 256 is the 32-bit word of lane `k` exactly when `k` is the column the word names. -/
theorem ofNat_eq_iff (k : Fin 256) (w : BitVec 32) (hw : w.toNat < 256) :
    BitVec.ofNat 32 k.val = w ↔ k = col w := by
  constructor
  · intro h
    apply Fin.ext
    rw [col_val_of_lt hw, ← h, BitVec.toNat_ofNat]
    have := k.isLt
    omega
  · intro h
    apply BitVec.eq_of_toNat_eq
    rw [BitVec.toNat_ofNat, h, col_val_of_lt hw]
    omega

/-- The compare bit of lane `k` against a class-index word, widened and converted: 1 at the word's lane, else 0. -/
theorem onehot_word (k : Fin 256) (w : BitVec 32) (hw : w.toNat < 256) :
    FloatOps.sitofp (F := Ideal) .f32 ((IntOp.cmpi .eq (BitVec.ofNat 32 k.val) w).setWidth 32)
      = if k = col w then (1 : EReal) else 0 := by
  have hs : ∀ b : BitVec 32, FloatOps.sitofp (F := Ideal) .f32 b = ((b.toInt : ℝ) : EReal) := fun _ => rfl
  rw [hs]
  by_cases h : k = col w
  · have e : BitVec.ofNat 32 k.val = w := (ofNat_eq_iff k w hw).mpr h
    have e1 : (IntOp.cmpi .eq (BitVec.ofNat 32 k.val) w).setWidth 32 = 1#32 := by
      rw [e]; unfold IntOp.cmpi; simp
    rw [if_pos h, e1]
    simp
  · have e : ¬ BitVec.ofNat 32 k.val = w := fun e => h ((ofNat_eq_iff k w hw).mp e)
    have e0 : (IntOp.cmpi .eq (BitVec.ofNat 32 k.val) w).setWidth 32 = 0#32 := by
      unfold IntOp.cmpi
      rw [show (BitVec.ofNat 32 k.val == w) = false from beq_eq_false_iff_ne.mpr e]
      rfl
    rw [if_neg h, e0]
    simp

/-- The mask read at row `p`, lane `k`: the lane number compared with the row's label (the labels cast to a
    column and broadcast along the lanes), the bit widened and converted. -/
theorem mask_apply (l : IVec S2048 32) (h1 : S2048.ShapeCasts S2048) (hi : S2048x256.Iotas .tc 32 [1])
    (h2 : S2048.ShapeCasts S2048x1) (hb : S2048x1.Broadcasts S2048x256) (hn : 1 < 32)
    (p : Fin 2048) (k : Fin 256) (hp : (l (ix1 p)).toNat < 256) :
    (sitofp .f32 (extui 32 (cmpi .eq (iota .tc S2048x256 32 [1] hi)
        (broadcastTo S2048x256 (shapeCast S2048x1 (shapeCast S2048 l h1) h2) hb)) hn) : FVec Ideal S2048x256 .f32) (ix2 p k)
      = if k = col (l (ix1 p)) then (1 : EReal) else 0 := by
  have hiota : iota .tc S2048x256 32 [1] hi (ix2 p k) = BitVec.ofNat 32 k.val :=
    iota_single_apply .tc S2048x256 32 1 hi (ix2 p k)
  have hlab : broadcastTo S2048x256 (shapeCast S2048x1 (shapeCast S2048 l h1) h2) hb (ix2 p k) = l (ix1 p) := by
    refine (broadcastTo_a1_ab_apply _ hb p k).trans ?_
    refine (shapeCast_a_a1_apply _ h2 p 0).trans ?_
    rw [shapeCast_self]
  show FloatOps.sitofp (F := Ideal) .f32 ((IntOp.cmpi .eq (iota .tc S2048x256 32 [1] hi (ix2 p k))
      (broadcastTo S2048x256 (shapeCast S2048x1 (shapeCast S2048 l h1) h2) hb (ix2 p k))).setWidth 32) = _
  rw [hiota, hlab]
  exact onehot_word k (l (ix1 p)) hp

/-- THE CHUNK: the loop body's yield, at its one index, is the carried value plus the 2048 rows' contributions. -/
theorem pay3_apply (acc : FVec Ideal S1x1 .f32) (x : Vec Ideal S2048x256 .f32) (l : Vec Ideal S2048 .i32)
    (hl : ∀ q : Fin 2048, (l (ix1 q)).toNat < 256) (j : S1x1.Idx) :
    k0_pay3 (F := Ideal) acc x l j = acc j + ∑ q : Fin 2048, Ideal.log (x (ix2 q (col (l (ix1 q))))) := by
  obtain ⟨a, b, rfl⟩ : ∃ (a : Fin 1) (b : Fin 1), j = ix2 a b := ⟨j 0, j 1, eq_ix2 j⟩
  unfold k0_pay3
  rw [addf_apply]
  refine congrArg (acc (ix2 a b) + ·) ?_
  -- the [1] -> [1, 1] cast reads the row sum's one entry
  refine (shapeCast_a_a1_apply _ shapeCasts_S1_S1x1 a b).trans ?_
  refine (row_sum _ reduces_S2048x1_S1 _ _ a).trans ?_
  refine Finset.sum_congr rfl fun q _ => ?_
  -- row q: log of the lane sum, through the [2048] -> [2048, 1] cast
  show Ideal.log (shapeCast S2048x1 _ shapeCasts_S2048_S2048x1 (ix2 q a)) = _
  refine congrArg Ideal.log ?_
  refine (shapeCast_a_a1_apply _ shapeCasts_S2048_S2048x1 q a).trans ?_
  refine (lane_sum _ reduces_S2048x256_S2048 _ _ q).trans ?_
  -- only the label's lane survives the mask
  refine (Finset.sum_eq_single (col (l (ix1 q))) ?_ ?_).trans ?_
  · intro k _ hk
    rw [mulf_apply, mask_apply l _ _ _ _ _ q k (hl q), if_neg hk, mul_zero]
  · intro h; exact absurd (Finset.mem_univ _) h
  · rw [mulf_apply, mask_apply l _ _ _ _ _ q _ (hl q), if_pos rfl, mul_one]

end Cert.Loss.Chunk

end
-- ==== Proof.KernelBlock.lean ====
/-
  One grid point at the ideal instance. A point is given a block of 8192 rows of probabilities and their 8192 labels;
  row r of the block contributes log of the probability its label picks. The loop's four trips take the rows
  2048 k … 2048 k + 2047 in turn, so the carried value after n trips is the sum of the contributions of the rows below
  2048 n (sums over a range of naturals: consecutive stretches join by `Finset.sum_range_add`), and after the fourth it
  is the block's total. The output block then holds, at every one of its 1 × 8 × 128 entries, that total at a first
  step, and what it held plus that total elsewhere.
-/
import proofs.«407000_j55989193670919_3_alg».proof.Proof.Spec
import proofs.«407000_j55989193670919_3_alg».proof.Proof.KernelPieces
import proofs.«407000_j55989193670919_3_alg».proof.Proof.ChunkPayload
import Idealize.ShloMosaic.Lib.ValueLayout
import Idealize.ShloMosaic.PureOps.Ideal.Laws

noncomputable section

namespace Cert.Loss.Kernel

open Idealize.ShloMosaic Idealize.ShloMosaic.TcCoe Idealize.ShloMosaic.ValueIdx Idealize.SL.Sem Cert.KernelIdeal Cert.KernelIdeal.Gen Cert.Loss

/-- Row `r` of a block's contribution; 0 past the block's last row. -/
def blockTerm (x0 : Vec Ideal S8192x256 .f32) (x1 : Vec Ideal S8192 .i32) (r : ℕ) : EReal :=
  if h : r < 8192 then Ideal.log (x0 (ix2 ⟨r, h⟩ (col (x1 (ix1 ⟨r, h⟩))))) else 0

theorem blockTerm_of_lt (x0 : Vec Ideal S8192x256 .f32) (x1 : Vec Ideal S8192 .i32) (r : ℕ) (h : r < 8192) :
    blockTerm x0 x1 r = Ideal.log (x0 (ix2 ⟨r, h⟩ (col (x1 (ix1 ⟨r, h⟩))))) := dif_pos h

/-- The block's total. -/
def blockTotal (x0 : Vec Ideal S8192x256 .f32) (x1 : Vec Ideal S8192 .i32) : EReal :=
  ∑ r ∈ Finset.range 8192, blockTerm x0 x1 r

/-- Every label of the block is a class index. -/
def BlockInRange (x1 : Vec Ideal S8192 .i32) : Prop := ∀ r : Fin 8192, (x1 (ix1 r)).toNat < 256

theorem loop_trips : k0_t1_loop.trips = 4 := by decide
theorem trips_four : Scf.trips (0#32) (Scalar.addi 0#32 4#32) 1#32 = 4 := by decide

/-! ## The small payloads at an index -/

theorem pay1_apply (y : S1x8x128.Idx) : k0_pay1 (F := Ideal) y = 0 := by
  show Ideal.ofBits .f32 0x00000000#32 = 0
  exact Ideal.ofBits_zero_f32

theorem pay2_apply (j : S1x1.Idx) : k0_pay2 (F := Ideal) j = 0 := by
  show Ideal.ofBits .f32 0x00000000#32 = 0
  exact Ideal.ofBits_zero_f32

/-- The final store's payload: the block read back plus the carried [1,1] value laid over the whole block. -/
theorem pay4_apply (v5 : FVec Ideal S1x1 .f32) (v8 : Vec Ideal S1x8x128 .f32) (u : Fin 1) (s : Fin 8) (l : Fin 128) :
    k0_pay4 (F := Ideal) v5 v8 (ix3 u s l) = v8 (ix3 u s l) + v5 (ix2 0 0) := by
  unfold k0_pay4
  rw [addf_apply, shapeCast_self]
  congr 1
  rw [broadcastTo_apply _ broadcasts_S1x1x1_S1x8x128 (ix3 u s l) (ix3 (0 : Fin 1) (0 : Fin 1) (0 : Fin 1)) (fun a => by
    match a with
    | ⟨0, _⟩ => rfl
    | ⟨1, _⟩ => rfl
    | ⟨2, _⟩ => rfl)]
  exact shapeCast_ab_1ab_apply v5 shapeCasts_S1x1_S1x1x1 0 0 0

/-! ## A trip's rows and labels are rows of the point's blocks -/

theorem rowsAt_apply (x0 : Vec Ideal S8192x256 .f32) (k : Fin k0_t1_loop.trips) (q : Fin 2048) (cc : Fin 256)
    (hr : 2048 * k.val + q.val < 8192) :
    rowsAt x0 k (ix2 q cc) = x0 (ix2 ⟨2048 * k.val + q.val, hr⟩ cc) := by
  show x0 _ = x0 _
  congr 1
  funext a
  apply Fin.ext
  match a with
  | ⟨0, _⟩ =>
    show (k0_off1 k) 0 + 1 * q.val = 2048 * k.val + q.val
    rw [k0_off1_eq k]; show 2048 * k.val + 1 * q.val = _; omega
  | ⟨1, _⟩ =>
    show (k0_off1 k) 1 + 1 * cc.val = cc.val
    rw [k0_off1_eq k]; show 0 + 1 * cc.val = _; omega

theorem labelsAt_apply (x1 : Vec Ideal S8192 .i32) (k : Fin k0_t1_loop.trips) (q : Fin 2048)
    (hr : 2048 * k.val + q.val < 8192) :
    labelsAt x1 k (ix1 q) = x1 (ix1 ⟨2048 * k.val + q.val, hr⟩) := by
  show x1 _ = x1 _
  congr 1
  funext a
  apply Fin.ext
  match a with
  | ⟨0, _⟩ =>
    show (k0_off2 k) 0 + 1 * q.val = 2048 * k.val + q.val
    rw [k0_off2_eq k]; show 2048 * k.val + 1 * q.val = _; omega

/-! ## The carried value -/

/-- After `n` trips the loop carries its initial value plus the contributions of the block's rows below 2048 n. -/
theorem carried_after (c : Dev nD) (i : grid0.Coords) (a2 : Memref sig .tc .vmem S8192x256 .f32) (h2 : a2.IsWhole)
    (a3 : Memref sig .tc .vmem S8192 .i32) (h3 : a3.IsWhole) (a4 : Memref sig .tc .vmem S1x8x128 .f32) (h4 : a4.IsWhole)
    (x0 : Vec Ideal S8192x256 .f32) (x1 : Vec Ideal S8192 .i32) (hl : BlockInRange x1) (init : FVec Ideal S1x1 .f32) (j : S1x1.Idx) :
    ∀ n : ℕ, n ≤ 4 →
      st_k0_t1 (F := Ideal) Variants.none c none i a2 h2 a3 h3 a4 h4 (h2.unread x0) (h3.unread x1) init n j
        = init j + ∑ r ∈ Finset.range (2048 * n), blockTerm x0 x1 r
  | 0, _ => by
    rw [st_k0_t1_zero]; simp
  | n + 1, hn => by
    have hk : n < k0_t1_loop.trips := by rw [loop_trips]; omega
    have e := st_k0_t1_succ (F := Ideal) Variants.none c none i a2 h2 a3 h3 a4 h4 (h2.unread x0) (h3.unread x1) init ⟨n, hk⟩
    rw [show (⟨n, hk⟩ : Fin k0_t1_loop.trips).val + 1 = n + 1 from rfl] at e
    rw [e, trip_val, Chunk.pay3_apply _ _ _ (fun q => by
      rw [labelsAt_apply x1 ⟨n, hk⟩ q (by show 2048 * n + q.val < 8192; have := q.isLt; omega)]
      exact hl _)]
    rw [carried_after c i a2 h2 a3 h3 a4 h4 x0 x1 hl init j n (by omega)]
    have hs : (∑ q : Fin 2048, Ideal.log (rowsAt x0 ⟨n, hk⟩ (ix2 q (col (labelsAt x1 ⟨n, hk⟩ (ix1 q))))))
        = ∑ q ∈ Finset.range 2048, blockTerm x0 x1 (2048 * n + q) := by
      rw [← Fin.sum_univ_eq_sum_range (fun q => blockTerm x0 x1 (2048 * n + q)) 2048]
      refine Finset.sum_congr rfl fun q _ => ?_
      have hq : 2048 * n + q.val < 8192 := by have := q.isLt; omega
      rw [blockTerm_of_lt x0 x1 _ hq, labelsAt_apply x1 ⟨n, hk⟩ q hq, rowsAt_apply x0 ⟨n, hk⟩ q _ hq]
    rw [hs, show 2048 * (n + 1) = 2048 * n + 2048 from by omega, Finset.sum_range_add, add_assoc]

/-- When the loop ends it carries the block's total. -/
theorem carried_eq (c : Dev nD) (i : grid0.Coords) (a2 : Memref sig .tc .vmem S8192x256 .f32) (h2 : a2.IsWhole)
    (a3 : Memref sig .tc .vmem S8192 .i32) (h3 : a3.IsWhole) (a4 : Memref sig .tc .vmem S1x8x128 .f32) (h4 : a4.IsWhole)
    (x0 : Vec Ideal S8192x256 .f32) (x1 : Vec Ideal S8192 .i32) (hl : BlockInRange x1) (j : S1x1.Idx) :
    carried (F := Ideal) c i a2 h2 a3 h3 a4 h4 x0 x1 j = blockTotal x0 x1 := by
  unfold carried
  rw [trips_four, carried_after c i a2 h2 a3 h3 a4 h4 x0 x1 hl _ j 4 (le_refl _), pay2_apply, zero_add]
  rfl

/-- Away from a first step the output block holds, at every entry, what it held plus the block's total; -/
theorem outB_apply (c : Dev nD) (i : grid0.Coords) (a2 : Memref sig .tc .vmem S8192x256 .f32) (h2 : a2.IsWhole)
    (a3 : Memref sig .tc .vmem S8192 .i32) (h3 : a3.IsWhole) (a4 : Memref sig .tc .vmem S1x8x128 .f32) (h4 : a4.IsWhole)
    (hc : ¬cond0_0 i) (x0 : Vec Ideal S8192x256 .f32) (x1 : Vec Ideal S8192 .i32) (hl : BlockInRange x1)
    (xo : Vec Ideal S1x8x128 .f32) (u : Fin 1) (s : Fin 8) (l : Fin 128) :
    out0_B_2 (F := Ideal) c i a2 h2 a3 h3 a4 h4 hc x0 x1 xo (ix3 u s l) = xo (ix3 u s l) + blockTotal x0 x1 := by
  rw [out_B, pay4_apply, carried_eq c i a2 h2 a3 h3 a4 h4 x0 x1 hl]

/-- at a first step, the block's total. -/
theorem outA_apply (c : Dev nD) (i : grid0.Coords) (a2 : Memref sig .tc .vmem S8192x256 .f32) (h2 : a2.IsWhole)
    (a3 : Memref sig .tc .vmem S8192 .i32) (h3 : a3.IsWhole) (a4 : Memref sig .tc .vmem S1x8x128 .f32) (h4 : a4.IsWhole)
    (hc : cond0_0 i) (x0 : Vec Ideal S8192x256 .f32) (x1 : Vec Ideal S8192 .i32) (hl : BlockInRange x1)
    (u : Fin 1) (s : Fin 8) (l : Fin 128) :
    out0_A_2 (F := Ideal) c i a2 h2 a3 h3 a4 h4 hc x0 x1 (ix3 u s l) = blockTotal x0 x1 := by
  rw [out_A, pay4_apply, carried_eq c i a2 h2 a3 h3 a4 h4 x0 x1 hl, pay1_apply, zero_add]

end Cert.Loss.Kernel

end
-- ==== Proof.KernelPoints.lean ====
/-
  Point by point. The grid's 128 points are numbered t = 64 co + i (core co, step i). Point t is given rows
  8192 t … 8192 t + 8191 of the probabilities and of the (clamped) labels, so its block's total is the sum of the
  contributions of those rows of the whole arrays. At a first step (i = 0) the output block is set to the block's total,
  elsewhere the block's total is added to what the point before left: after point t every entry of the output block
  holds the sum of the contributions of the rows 524288 co … 524288 co + 8192 (i + 1) - 1, by induction on the point.
-/
import proofs.«407000_j55989193670919_3_alg».proof.Proof.KernelBlock

noncomputable section

namespace Cert.Loss.Kernel

open Idealize.ShloMosaic Idealize.ShloMosaic.TcCoe Idealize.ShloMosaic.ValueIdx Idealize.SL.Sem Cert.KernelIdeal Cert.KernelIdeal.Gen Cert.Loss

variable (m : (ℓ : Loc nD τ sig) → Buf (Elt Ideal) ℓ)

/-- The probabilities and the clamped labels as the region finds them, and a point's two input blocks. -/
abbrev parr (c : Dev nD) : Vec Ideal S1048576x256 .f32 := V m c main_arg0
abbrev larr (c : Dev nD) : Vec Ideal S1048576 .i32 := V m c main_v0
abbrev pblk (c : Dev nD) (t : Fin cfg0.N) : Vec Ideal S8192x256 .f32 := iblk m c 0 t
abbrev lblk (c : Dev nD) (t : Fin cfg0.N) : Vec Ideal S8192 .i32 := iblk m c 1 t

/-- The block index of both input windows at point `t` is `t` itself (the index maps compute 64 co + i). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 1) = t.val :=
  (by decide +kernel : ∀ t : Fin grid0.N, win0_1.index t (0 : Fin 1) = t.val)

theorem row_lt (t : Fin cfg0.N) (r : Fin 8192) : 8192 * t.val + r.val < 1048576 := by
  have hN : t.val < 128 := lt_of_lt_of_eq t.isLt (show cfg0.N = 128 from N_0)
  have := r.isLt
  omega

/-- Entry (r, k) of point `t`'s probabilities block is entry (8192 t + r, k) of the array; -/
theorem pblk_apply (c : Dev nD) (t : Fin cfg0.N) (r : Fin 8192) (k : Fin 256) :
    pblk m c t (ix2 r k) = parr m c (ix2 ⟨8192 * t.val + r.val, row_lt t r⟩ k) := by
  show V m c main_arg0 (((cfg0.win 0).blk t).view.emb (ix2 r k)) = V m c main_arg0 _
  congr 1
  funext a
  apply Fin.ext
  match a with
  | ⟨0, _⟩ =>
    show win0_0.index t 0 * 8192 + 1 * r.val = 8192 * t.val + r.val
    rw [(idx0 t).1]; omega
  | ⟨1, _⟩ =>
    show win0_0.index t 1 * 256 + 1 * k.val = k.val
    rw [(idx0 t).2]; omega

/-- entry r of its labels block is entry 8192 t + r of the labels. -/
theorem lblk_apply (c : Dev nD) (t : Fin cfg0.N) (r : Fin 8192) :
    lblk m c t (ix1 r) = larr m c (ix1 ⟨8192 * t.val + r.val, row_lt t r⟩) := by
  show V m c main_v0 (((cfg0.win 1).blk t).view.emb (ix1 r)) = V m c main_v0 _
  congr 1
  funext a
  apply Fin.ext
  match a with
  | ⟨0, _⟩ =>
    show win0_1.index t 0 * 8192 + 1 * r.val = 8192 * t.val + r.val
    rw [idx1 t]; omega

/-- Labels that are class indices are so block by block. -/
theorem lblk_inRange (c : Dev nD) (hL : InRange (larr m c)) (t : Fin cfg0.N) : BlockInRange (lblk m c t) := fun r => by
  rw [lblk_apply]; exact hL _

/-- A point's block total is the sum of the contributions of its 8192 rows of the arrays. -/
theorem blockTotal_eq (c : Dev nD) (t : Fin cfg0.N) :
    blockTotal (pblk m c t) (lblk m c t) = ∑ r ∈ Finset.range 8192, term (parr m c) (larr m c) (8192 * t.val + r) := by
  unfold blockTotal
  refine Finset.sum_congr rfl fun r hr => ?_
  have hr' : r < 8192 := Finset.mem_range.mp hr
  have hrow : 8192 * t.val + r < 1048576 := row_lt t ⟨r, hr'⟩
  rw [blockTerm_of_lt _ _ r hr', pblk_apply m c t ⟨r, hr'⟩, lblk_apply m c t ⟨r, hr'⟩]
  exact (term_of_lt (parr m c) (larr m c) ⟨8192 * t.val + r, hrow⟩).symm

/-- THE ACCUMULATION: after point `n` every entry of the output block holds the contributions of the rows its core has
    covered so far. -/
theorem outsAt_eq (c : Dev nD) (hL : InRange (larr m c)) (u : Fin 1) (s : Fin 8) (l : Fin 128) :
    ∀ (n : ℕ) (h : n < cfg0.N), outsAt0 m c n h (ix3 u s l)
      = ∑ r ∈ Finset.range ((n % 64 + 1) * 8192), term (parr m c) (larr m c) (n / 64 * 524288 + r)
  | 0, h => by
    rw [outsAt0_A m c ⟨0, h⟩ rfl]
    rw [outA_apply c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      ((hcond0_0 ⟨0, h⟩).mpr rfl) (pblk m c ⟨0, h⟩) (lblk m c ⟨0, h⟩) (lblk_inRange m c hL ⟨0, h⟩) u s l]
    rw [blockTotal_eq]
    rfl
  | n + 1, h => by
    have hN : n + 1 < 128 := lt_of_lt_of_eq h (show cfg0.N = 128 from N_0)
    by_cases h0 : (n + 1) % 64 = 0
    · rw [outsAt0_A m c ⟨n + 1, h⟩ h0]
      rw [outA_apply c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) ((hcond0_0 ⟨n + 1, h⟩).mpr h0) (pblk m c ⟨n + 1, h⟩) (lblk m c ⟨n + 1, h⟩)
        (lblk_inRange m c hL ⟨n + 1, h⟩) u s l]
      rw [blockTotal_eq, h0]
      refine Finset.sum_congr rfl fun r _ => ?_
      exact congrArg (term (parr m c) (larr m c)) (by show 8192 * (n + 1) + r = (n + 1) / 64 * 524288 + r; omega)
    · rw [outsAt0_B m c ⟨n + 1, h⟩ h0]
      rw [outB_apply c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => h0 ((hcond0_0 ⟨n + 1, h⟩).mp hh)) (pblk m c ⟨n + 1, h⟩) (lblk m c ⟨n + 1, h⟩)
        (lblk_inRange m c hL ⟨n + 1, h⟩) _ u s l]
      rw [blockTotal_eq]
      have hprev : outsAt0 m c ((⟨n + 1, h⟩ : Fin cfg0.N).val - 1) (Nat.lt_of_le_of_lt (Nat.sub_le _ _) (⟨n + 1, h⟩ : Fin cfg0.N).isLt) (ix3 u s l)
          = ∑ r ∈ Finset.range ((n % 64 + 1) * 8192), term (parr m c) (larr m c) (n / 64 * 524288 + r) :=
        outsAt_eq c hL u s l n (Nat.lt_of_succ_lt h)
      rw [hprev]
      have e1 : ((n + 1) % 64 + 1) * 8192 = (n % 64 + 1) * 8192 + 8192 := by omega
      have e2 : (n + 1) / 64 = n / 64 := by omega
      rw [e1, e2, Finset.sum_range_add]
      refine congrArg (fun z => (∑ r ∈ Finset.range ((n % 64 + 1) * 8192), term (parr m c) (larr m c) (n / 64 * 524288 + r)) + z) ?_
      refine Finset.sum_congr rfl fun r _ => ?_
      exact congrArg (term (parr m c) (larr m c))
        (by show 8192 * (n + 1) + r = n / 64 * 524288 + ((n % 64 + 1) * 8192 + r); omega)

end Cert.Loss.Kernel

end
-- ==== Proof.KernelFinal.lean ====
/-
  The region's result array. The output window's block index is the core number, and the block is written back after a
  core's last step (the points t with t mod 64 = 63), when it holds the contributions of all 524288 rows of the core's
  half. So the [2, 8, 128] result array ends holding, at every entry of row co, the sum of the contributions of the rows
  524288 co … 524288 co + 524287: the two write-backs' blocks cover the array.
-/
import proofs.«407000_j55989193670919_3_alg».proof.Proof.KernelPoints

noncomputable section

namespace Cert.Loss.Kernel

open Idealize.ShloMosaic Idealize.ShloMosaic.TcCoe Idealize.ShloMosaic.ValueIdx Idealize.SL.Sem Cert.KernelIdeal Cert.KernelIdeal.Gen Cert.Loss
open Idealize.ShloMosaic.Pipeline (Dat)

variable (m : (ℓ : Loc nD τ sig) → Buf (Elt Ideal) ℓ)

/-- A core's half of the total: the contributions of the 524288 rows from row 524288 co on. -/
def half (c : Dev nD) (co : ℕ) : EReal :=
  ∑ r ∈ Finset.range 524288, term (parr m c) (larr m c) (co * 524288 + r)

/-- What the result array ends holding: at every entry of row co, core co's half. -/
abbrev partials (c : Dev nD) : Vec Ideal S2x8x128 .f32 := fun i => half m c (i 0).val

/-- The output window's block index at point `t` is the core number `t / 64`, on the leading axis only. -/
theorem idx2 : ∀ t : Fin cfg0.N, win0_2.index t (0 : Fin 3) = t.val / 64 ∧ win0_2.index t (1 : Fin 3) = 0 ∧ win0_2.index t (2 : Fin 3) = 0 :=
  (by decide +kernel : ∀ t : Fin grid0.N, win0_2.index t (0 : Fin 3) = t.val / 64 ∧ win0_2.index t (1 : Fin 3) = 0 ∧ win0_2.index t (2 : Fin 3) = 0)

/-- Block `t` of an array whose entries in row `t / 64` all equal `K` is the constant block `K` (the block is that row:
    its leading coordinate in the array is the block index `t / 64`, the block's own leading extent being 1). -/
theorem read_row_const (G : Vec Ideal S2x8x128 .f32) (K : EReal) (t : Fin cfg0.N)
    (hG : ∀ i : S2x8x128.Idx, (i 0).val = t.val / 64 → G i = K) :
    ((cfg0.win 2).blk t).view.read (Elt Ideal) G = (cfg0.win 2).cut (grid0.coords t) (fun _ => K) := by
  funext j
  have hj0 : (j 0).val = 0 := by have h : (j 0).val < 1 := (j 0).isLt; omega
  have hrow : ((((cfg0.win 2).blk t).view.emb j) 0).val = t.val / 64 := by
    show win0_2.index t (0 : Fin 3) * 1 + 1 * (j 0).val = t.val / 64
    rw [(idx2 t).1, hj0]; omega
  show G (((cfg0.win 2).blk t).view.emb j) = K
  exact hG _ hrow

/-- WHAT A WRITE-BACK WRITES is its block of `partials`: at a core's last step the output block holds the core's half. -/
theorem flushed_eq (c : Dev nD) (hL : InRange (larr m c)) (t : Fin cfg0.N) (hf : (cfg0.win 2).flush t = true) :
    (dats m 0 c).flushed 2 t = ((cfg0.win 2).blk t).view.read (Elt Ideal) (partials m c) := by
  have h63 : t.val % 64 = 63 := (flush0_2 t).mp hf
  show (cfg0.win 2).cut (grid0.coords t) ((dats m 0 c).after 2 t) = _
  rw [after0_2]
  -- all that is used of the block's contents: every entry is the core's half
  have hX : ∀ (u : Fin 1) (s : Fin 8) (l : Fin 128), outsAt0 m c t.val t.isLt (ix3 u s l) = half m c (t.val / 64) := by
    intro u s l
    rw [outsAt_eq m c hL u s l t.val t.isLt, h63]
    rfl
  generalize outsAt0 m c t.val t.isLt = X at hX ⊢
  -- so the block is the constant block
  obtain rfl : X = fun _ => half m c (t.val / 64) := funext fun y => by rw [eq_ix3 y]; exact hX (y 0) (y 1) (y 2)
  exact (read_row_const (partials m c) (half m c (t.val / 64)) t (fun i hi => by
    show half m c (i 0).val = half m c (t.val / 64)
    rw [hi])).symm

/-- An index of the array is in point `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v1).slice (win0_2.rect t)).set ↔ _
  rw [View.set_slice_whole, Rect.mem_set_unit]
  exact Iff.rfl

/-- THE RESULT ARRAY after the region: `partials`. Row co is covered by the write-back at point 64 co + 63. -/
theorem final (c : Dev nD) (hL : InRange (larr m c)) : (dats m 0 c).arrAt 2 cfg0.N = partials m c :=
  (dats m 0 c).arrAt_eq_of_cover 2 (partials m c) (fun t hf => flushed_eq m c hL t hf) fun i => by
    have h0 : (i 0).val < 2 := (i 0).isLt
    have h1 : (i 1).val < 8 := (i 1).isLt
    have h2 : (i 2).val < 128 := (i 2).isLt
    have hN : 64 * (i 0).val + 63 < cfg0.N := by rw [show cfg0.N = 128 from N_0]; omega
    refine ⟨⟨64 * (i 0).val + 63, hN⟩, (flush0_2 _).mpr (by show (64 * (i 0).val + 63) % 64 = 63; omega), ?_⟩
    rw [mem_blk]
    obtain ⟨e0, e1, e2⟩ := idx2 ⟨64 * (i 0).val + 63, hN⟩
    intro a
    match a with
    | ⟨0, _⟩ =>
      show win0_2.index ⟨64 * (i 0).val + 63, hN⟩ (0 : Fin 3) * 1 ≤ (i 0).val ∧ (i 0).val < win0_2.index ⟨64 * (i 0).val + 63, hN⟩ (0 : Fin 3) * 1 + 1
      rw [e0]; show (64 * (i 0).val + 63) / 64 * 1 ≤ (i 0).val ∧ (i 0).val < (64 * (i 0).val + 63) / 64 * 1 + 1; omega
    | ⟨1, _⟩ =>
      show win0_2.index ⟨64 * (i 0).val + 63, hN⟩ (1 : Fin 3) * 8 ≤ (i 1).val ∧ (i 1).val < win0_2.index ⟨64 * (i 0).val + 63, hN⟩ (1 : Fin 3) * 8 + 8
      rw [e1]; omega
    | ⟨2, _⟩ =>
      show win0_2.index ⟨64 * (i 0).val + 63, hN⟩ (2 : Fin 3) * 128 ≤ (i 2).val ∧ (i 2).val < win0_2.index ⟨64 * (i 0).val + 63, hN⟩ (2 : Fin 3) * 128 + 128
      rw [e2]; omega

end Cert.Loss.Kernel

end
-- ==== Proof.KernelRun.lean ====
/-
  The kernel's run, read. Before the region the host clamps the labels into [0, 255], which changes no label that is a
  class index. After the region it takes entry (co, 0, 0) of each of the two rows of the result array, sums the two
  halves from 0, negates, and divides by 2^20: with the two halves' rows joined (`Finset.sum_range_add`) that is the
  loss of the probabilities and labels the program was given.
-/
import proofs.«407000_j55989193670919_3_alg».proof.Proof.KernelFinal
import Idealize.ShloMosaic.Lib.StableHlo.Run
import Idealize.ShloMosaic.Lib.StableHlo.Predicate

noncomputable section

namespace Cert.Loss.Kernel

open Idealize.ShloMosaic Idealize.ShloMosaic.TcCoe Idealize.ShloMosaic.ValueIdx Idealize.SL.Sem Cert.KernelIdeal Cert.KernelIdeal.Gen Cert.Loss
open Idealize.ShloMosaic.Pipeline (Dat)

variable (m : (ℓ : Loc nD τ sig) → Buf (Elt Ideal) ℓ) (ρ : Dev nD → PrngReg)

/-! ## Before the region: the clamp -/

/-- A class index clamped into [0, 255] (the larger of 0 and the word, then the smaller of 255 and that, compared
    signed) is itself. -/
theorem clip_word (w : BitVec 32) (h : w.toNat < 256) : IntOp.minsi 255#32 (IntOp.maxsi 0#32 w) = w := by
  have hti : w.toInt = w.toNat := StableHlo.Predicate.toInt_eq_toNat_of_lt (by omega)
  have h0 : (0#32 : BitVec 32).toInt = 0 := by decide
  have h255 : (255#32 : BitVec 32).toInt = 255 := by decide
  have hmax : IntOp.maxsi 0#32 w = w := by
    unfold IntOp.maxsi
    split <;> rename_i hc <;> simp only [BitVec.slt, hti, h0, decide_eq_true_eq] at hc
    · omega
    · rfl
  rw [hmax]
  unfold IntOp.minsi
  split <;> rename_i hc <;> simp only [BitVec.slt, hti, h255, decide_eq_true_eq] at hc
  · omega
  · rfl

/-- The labels the region finds are the program's labels clamped; -/
theorem larr_eq (c : Dev nD) :
    larr m c = minsi (broadcastInDim S1048576 ![] bcast_S_S1048576 (constantI S_ 32 255#32))
      (maxsi (broadcastInDim S1048576 ![] bcast_S_S1048576 (constantI S_ 32 0#32)) (m ((c : Thread nD τ).loc main_arg1))) := by
  show V m c main_v0 = _
  dsimp only [V, V0]
  simp only [hostOps0, hostOps0_1, List.flatten_cons, List.flatten_nil, List.append_nil, List.cons_append, List.nil_append]
  after_results
  rfl

/-- so, when those are class indices, they are the program's labels. -/
theorem larr_id (c : Dev nD) (hL : InRange (m ((c : Thread nD τ).loc main_arg1))) :
    larr m c = m ((c : Thread nD τ).loc main_arg1) := by
  rw [larr_eq]
  funext i
  show IntOp.minsi (broadcastInDim S1048576 ![] bcast_S_S1048576 (constantI S_ 32 255#32) i)
    (IntOp.maxsi (broadcastInDim S1048576 ![] bcast_S_S1048576 (constantI S_ 32 0#32) i) (m ((c : Thread nD τ).loc main_arg1) i)) = _
  rw [broadcastInDim_apply _ bcast_S_S1048576 (constantI S_ 32 255#32) i ix0 (fun a => a.elim0),
    broadcastInDim_apply _ bcast_S_S1048576 (constantI S_ 32 0#32) i ix0 (fun a => a.elim0)]
  show IntOp.minsi 255#32 (IntOp.maxsi 0#32 (m ((c : Thread nD τ).loc main_arg1) i)) = _
  rw [eq_ix1 i]
  exact clip_word _ (hL _)

/-- The probabilities the region finds are the program's. -/
theorem parr_id (c : Dev nD) : parr m c = m ((c : Thread nD τ).loc main_arg0) := V_main_arg0 m c

/-! ## After the region: the tail -/

/-- The host operations after the region, as one function of the region's result array. -/
def tail (A : Vec Ideal S2x8x128 .f32) : (⟨S_, .f32⟩ : BufTy).Contents (Elt Ideal) :=
  Host.divf (F := Ideal) (Host.negf (F := Ideal) (Host.reduceAdd (F := Ideal)
    (shapeCast S2 (extractStridedSlice S2x1x1 ![0, 0, 0] A slices_S2x8x128_S2x1x1_0_0_0) shapeCasts_S2x1x1_S2)
    (constant (F := Ideal) S_ .f32 0x00000000#32) reducesTo_S2_S_d0 h_S_)) (constant (F := Ideal) S_ .f32 0x49800000#32)

/-- What @main's last value ends holding: the tail of the region's final array. -/
theorem tail_eq (c : Dev nD) :
    Pipeline.afterTail₀ cfgs (dats m) 0 (V0 m) [hostOps1] c main_v6 = tail ((dats m 0 c).arrAt 2 cfg0.N) := by
  unfold Pipeline.afterTail₀
  show StableHlo.after hostOps1 _ (Proc.devRef .tc main_v6) = _
  after_results
  rw [Pipeline.withArrays_arr spec0 launch0.win.arr_inj c _ _ 2]
  rfl

/-- The two cores, as indices of the two-entry vector. -/
def coreEquiv : Fin 2 ≃ S2.Idx where
  toFun := ix1
  invFun j := j 0
  left_inv _ := rfl
  right_inv j := (eq_ix1 j).symm

/-- Entry k of the two-entry vector cut out of the result array is the array's entry (k, 0, 0). -/
theorem picked_apply (A : Vec Ideal S2x8x128 .f32) (k : Fin 2) :
    shapeCast S2 (extractStridedSlice S2x1x1 ![0, 0, 0] A slices_S2x8x128_S2x1x1_0_0_0) shapeCasts_S2x1x1_S2 (ix1 k)
      = A (ix3 k (0 : Fin 8) (0 : Fin 128)) := by
  rw [shapeCast_apply _ shapeCasts_S2x1x1_S2 (ix1 k) (ix3 k (0 : Fin 1) (0 : Fin 1)) (by
    rw [Shape.rowMajor_val_three, Shape.rowMajor_val_one]
    show (k.val * 1 + 0) * 1 + 0 = k.val
    omega)]
  unfold extractStridedSlice
  congr 1
  funext a
  apply Fin.ext
  match a with
  | ⟨0, _⟩ => show 0 + k.val = k.val; omega
  | ⟨1, _⟩ => rfl
  | ⟨2, _⟩ => rfl

/-- THE TAIL'S VALUE: minus the sum from 0 of the entries (0, 0, 0) and (1, 0, 0), over 2^20. -/
theorem tail_apply (A : Vec Ideal S2x8x128 .f32) (i : S_.Idx) :
    tail A i = Ideal.div (-(0 + (A (ix3 (0 : Fin 2) (0 : Fin 8) (0 : Fin 128)) + A (ix3 (1 : Fin 2) (0 : Fin 8) (0 : Fin 128))))) D := by
  unfold tail
  show FloatOps.hostDivf (F := Ideal) (FloatOps.hostNegf (F := Ideal) (Host.reduceAdd (F := Ideal) _ _ reducesTo_S2_S_d0 h_S_ i))
    (Ideal.ofBits .f32 0x49800000#32) = _
  rw [Ideal.hostDivf_def, Ideal.hostNegf_def, Ideal.negf_def]
  have hs : Host.reduceAdd (F := Ideal)
      (shapeCast S2 (extractStridedSlice S2x1x1 ![0, 0, 0] A slices_S2x8x128_S2x1x1_0_0_0) shapeCasts_S2x1x1_S2)
      (constant (F := Ideal) S_ .f32 0x00000000#32) reducesTo_S2_S_d0 h_S_ i
        = 0 + (A (ix3 (0 : Fin 2) (0 : Fin 8) (0 : Fin 128)) + A (ix3 (1 : Fin 2) (0 : Fin 8) (0 : Fin 128))) := by
    generalize hy : shapeCast S2 (extractStridedSlice S2x1x1 ![0, 0, 0] A slices_S2x8x128_S2x1x1_0_0_0) shapeCasts_S2x1x1_S2 = y0
    simp only [Host.reduceAdd, Ideal.hostReduceAdd_def]
    rw [Ideal.hostReduceAdd_total reducesTo_S2_S_d0 (fun b => b.elim0) y0 _ i]
    rw [(Fintype.sum_equiv coreEquiv (fun k => y0 (ix1 k)) y0 (fun _ => rfl)).symm, Fin.sum_univ_two]
    subst hy
    rw [picked_apply, picked_apply]
    show Ideal.ofBits .f32 0x00000000#32 + _ = _
    rw [Ideal.ofBits_zero_f32]
  rw [hs]

/-! ## The run -/

/-- The two halves are the total. -/
theorem halves (c : Dev nD) : half m c 0 + half m c 1 = total (parr m c) (larr m c) := by
  unfold half total
  rw [show (1048576 : ℕ) = 524288 + 524288 from rfl, Finset.sum_range_add]
  refine congrArg₂ (· + ·) (Finset.sum_congr rfl fun r _ => congrArg _ (by omega)) (Finset.sum_congr rfl fun r _ => congrArg _ (by omega))

/-- THE VALUE: @main's result is the loss of the probabilities and labels it was given. -/
theorem value_eq (c : Dev nD) (hL : InRange (m ((c : Thread nD τ).loc main_arg1))) :
    Pipeline.afterTail₀ cfgs (dats m) 0 (V0 m) [hostOps1] c main_v6
      = loss (m ((c : Thread nD τ).loc main_arg0)) (m ((c : Thread nD τ).loc main_arg1)) := by
  have hL' : InRange (larr m c) := by rw [larr_id m c hL]; exact hL
  rw [tail_eq, final m c hL']
  funext i
  rw [tail_apply]
  show Ideal.div (-(0 + (half m c 0 + half m c 1))) D = Ideal.div (-(total _ _)) D
  rw [halves, zero_add, parr_id, larr_id m c hL]

/-- THE RUN, READ: every weakly fair execution of the idealized kernel's @main terminates with its result at the loss
    and its arguments unchanged, when the labels are class indices. -/
theorem run (hL : ∀ c : Dev nD, InRange (m ((c : Thread nD τ).loc main_arg1))) :
    θ_run defs (onTc (τ := τ) (main (F := Ideal))) ⟨m, fun _ => 0, ρ⟩ fun r => ∀ c : Dev nD,
      r.2.mem ((c.tc : Thread nD τ).loc main_v6) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (value_eq m c (hL c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Loss.Kernel

end
-- ==== Proof.lean ====
/-
  A cross-entropy loss kernel against its jnp reference, over the extended reals.

  Both programs take a table of probabilities P : f32[1048576, 256] and class labels L : i32[1048576] and return
  -(1/2^20) · Σ_r log P[r, L[r]]. The reference picks P[r, L[r]] by a gather (wrapping a negative label, filling NaN
  where the label is outside [0, 255]), takes logs, sums, divides by 2^20 and negates. The kernel clamps the labels
  into [0, 255] on the host, then on a grid of 2 cores × 64 steps, four chunks of 2048 rows a step, picks the
  probability by a one-hot mask (lane iota = label) and a lane sum, takes logs, sums down the rows into a per-core
  accumulator block, and the host adds the two cores' partial sums, negates and divides by 2^20.

  The two agree where every label is a class index, 0 ≤ L[r] < 256 — the precondition of the claim beside finiteness of
  P (outside it the reference itself indexes out of range). There the clamp and the wrap change nothing, the in-bounds
  test holds, and the masked lane sum is P[r, L[r]] because x · 0 = 0 and x · 1 = x on every extended real. The two
  sums differ only in grouping (by core, step, chunk and row against one sum over all rows), and extended-real addition
  is commutative and associative without any finiteness; negating before dividing by 2^20 is dividing then negating,
  the quotient by a nonzero real being a product. So nothing here uses the finiteness of P.

  The common value is `Cert.Loss.loss` (Proof/Spec.lean). The kernel's side is read off the generated frame run:
  the loop's trip and the two cases of the body (Proof/KernelPieces.lean), one grid point (Proof/ChunkPayload.lean,
  Proof/KernelBlock.lean), the accumulation over the points (Proof/KernelPoints.lean), the result array
  (Proof/KernelFinal.lean), the host operations around the region (Proof/KernelRun.lean). The reference's side is its
  run (Proof/RefRun.lean), its stages read at an index (Proof/RefRead.lean) and their value (Proof/RefValue.lean); the
  label range comes out of the precondition in Proof/PreRange.lean.
-/
import proofs.«407000_j55989193670919_3_alg».proof.Defs
import proofs.«407000_j55989193670919_3_alg».proof.Proof.Gen.Kernel
import proofs.«407000_j55989193670919_3_alg».proof.Proof.Gen.Kernel.Skeleton
import proofs.«407000_j55989193670919_3_alg».proof.Proof.Gen.Kernel.Loops
import proofs.«407000_j55989193670919_3_alg».proof.Proof.Gen.Kernel.Launch
import proofs.«407000_j55989193670919_3_alg».proof.Proof.Gen.Kernel.Points
import proofs.«407000_j55989193670919_3_alg».proof.Proof.Gen.Kernel.Frame
import proofs.«407000_j55989193670919_3_alg».proof.Proof.Gen.KernelIdeal
import proofs.«407000_j55989193670919_3_alg».proof.Proof.Gen.KernelIdeal.Skeleton
import proofs.«407000_j55989193670919_3_alg».proof.Proof.Gen.KernelIdeal.Loops
import proofs.«407000_j55989193670919_3_alg».proof.Proof.Gen.KernelIdeal.Launch
import proofs.«407000_j55989193670919_3_alg».proof.Proof.Gen.KernelIdeal.Points
import proofs.«407000_j55989193670919_3_alg».proof.Proof.Gen.KernelIdeal.Frame
import proofs.«407000_j55989193670919_3_alg».proof.Proof.Gen.ReferenceIdeal
import proofs.«407000_j55989193670919_3_alg».proof.Proof.Gen.Pre_finite_inputs
import proofs.«407000_j55989193670919_3_alg».proof.Proof.RefRun
import proofs.«407000_j55989193670919_3_alg».proof.Proof.RefRead
import proofs.«407000_j55989193670919_3_alg».proof.Proof.RefValue
import proofs.«407000_j55989193670919_3_alg».proof.Proof.PreRange
import proofs.«407000_j55989193670919_3_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs, faults nowhere and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing of the kernel: there is nothing to preserve. -/
theorem preserves : Cert.preserves_Kernel_KernelIdeal := trivial

/-- Under the precondition both programs end at the loss of the arguments: the kernel by its run read
    (`Cert.Loss.Kernel.run`), the reference by its run and the value of its last stage (`Cert.Loss.RefValue.ref_value`),
    the labels being class indices by the precondition (`Cert.Loss.PreRange.inRange_of_fn`). -/
theorem algebraic : Cert.algebraic_KernelIdeal_ReferenceIdeal := by
  intro m ρ m' ρ' hpre hagree
  have hL : ∀ c : Dev Cert.KernelIdeal.nD,
      Cert.Loss.InRange (m ((c.tc : Thread Cert.KernelIdeal.nD Cert.KernelIdeal.τ).loc Cert.KernelIdeal.main_arg1)) :=
    fun c => Cert.Loss.PreRange.inRange_of_fn _ _ (hpre c)
  refine ⟨fun c => Cert.Loss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Loss.Kernel.run m ρ hL, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v6_eq, (hagree c).1, (hagree c).2]
  exact Cert.Loss.RefValue.ref_value _ _ (hL c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
